-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S1x512x10 : Shape := ⟨3, ![1, 512, 10]⟩
abbrev S1x512x1 : Shape := ⟨3, ![1, 512, 1]⟩
abbrev S11x64 : Shape := ⟨2, ![11, 64]⟩
abbrev S64 : Shape := ⟨1, ![64]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1x512x10 : S_.BroadcastsInDim S1x512x10 (![] : Fin 0 → Fin S1x512x10.rank)
  reducesTo_S1x512x10_S_d0_1_2 : S1x512x10.ReducesTo [0, 1, 2] S_
  bcast_S_S1x512x1 : S_.BroadcastsInDim S1x512x1 (![] : Fin 0 → Fin S1x512x1.rank)
  reducesTo_S1x512x1_S_d0_1_2 : S1x512x1.ReducesTo [0, 1, 2] S_
  bcast_S_S11x64 : S_.BroadcastsInDim S11x64 (![] : Fin 0 → Fin S11x64.rank)
  reducesTo_S11x64_S_d0_1 : S11x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S11x64 .f32) (main_arg5 : FVec F S64 .f32) (main_v13 : IVec S_ 1) (main_v16 : IVec S1x512x1 1) : IVec S_ 1 :=
  let main_c_5 : IVec S_ 1 := constantI S_ 1 1#1
  let main_v17 : IVec S_ 1 := (fun x v => Host.reduce IntOp.andi x v reducesTo_S1x512x1_S_d0_1_2 h_S_) main_v16 main_c_5
  let main_v18 : IVec S_ 1 := andi main_v13 main_v17
  let main_v19 : FVec F S11x64 .f32 := Host.absf main_arg4
  let main_cst_6 : FVec F S_ .f32 := constant S_ .f32 0x7F800000#32
  let main_v20 : FVec F S11x64 .f32 := broadcastInDim S11x64 ![] bcast_S_S11x64 main_cst_6
  let main_v21 : IVec S11x64 1 := cmpf .olt main_v19 main_v20
  let main_c_7 : IVec S_ 1 := constantI S_ 1 1#1
  let main_v22 : IVec S_ 1 := (fun x v => Host.reduce IntOp.andi x v reducesTo_S11x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4096x512 .f32) (main_arg1 : FVec F S4096x512 .f32) (main_arg2 : FVec F S1x512x10 .f32) (main_arg3 : FVec F S1x512x1 .f32) (main_arg4 : FVec F S11x64 .f32) (main_arg5 : FVec F S64 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S1x512x10 .f32 := Host.absf main_arg2
  let main_cst_2 : FVec F S_ .f32 := constant S_ .f32 0x7F800000#32
  let main_v10 : FVec F S1x512x10 .f32 := broadcastInDim S1x512x10 ![] bcast_S_S1x512x10 main_cst_2
  let main_v11 : IVec S1x512x10 1 := cmpf .olt main_v9 main_v10
  let main_c_3 : IVec S_ 1 := constantI S_ 1 1#1
  let main_v12 : IVec S_ 1 := (fun x v => Host.reduce IntOp.andi x v reducesTo_S1x512x10_S_d0_1_2 h_S_) main_v11 main_c_3
  let main_v13 : IVec S_ 1 := andi main_v8 main_v12
  let main_v14 : FVec F S1x512x1 .f32 := Host.absf main_arg3
  let main_cst_4 : FVec F S_ .f32 := constant S_ .f32 0x7F800000#32
  let main_v15 : FVec F S1x512x1 .f32 := broadcastInDim S1x512x1 ![] bcast_S_S1x512x1 main_cst_4
  let main_v16 : IVec S1x512x1 1 := cmpf .olt main_v14 main_v15
  fn_part1 (F := F) main_arg4 main_arg5 main_v13 main_v16
-- ==== Kernel.lean ====
abbrev S4096x512 : Shape := ⟨2, ![4096, 512]⟩
abbrev S1x512x10 : Shape := ⟨3, ![1, 512, 10]⟩
abbrev S1x512x1 : Shape := ⟨3, ![1, 512, 1]⟩
abbrev S11x64 : Shape := ⟨2, ![11, 64]⟩
abbrev S64 : Shape := ⟨1, ![64]⟩
abbrev S512x10 : Shape := ⟨2, ![512, 10]⟩
abbrev S10x64 : Shape := ⟨2, ![10, 64]⟩
abbrev S512x64 : Shape := ⟨2, ![512, 64]⟩
abbrev S512x1 : Shape := ⟨2, ![512, 1]⟩
abbrev S1x64 : Shape := ⟨2, ![1, 64]⟩
abbrev S4096x64 : Shape := ⟨2, ![4096, 64]⟩
abbrev S1024x512 : Shape := ⟨2, ![1024, 512]⟩
abbrev S1024x64 : Shape := ⟨2, ![1024, 64]⟩

abbrev nBuf : Space → Nat
  | .hbm => 18
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512x10, .f32⟩
  | .hbm, ⟨3, _⟩ => ⟨S1x512x1, .f32⟩
  | .hbm, ⟨4, _⟩ => ⟨S11x64, .f32⟩
  | .hbm, ⟨5, _⟩ => ⟨S64, .f32⟩
  | .hbm, ⟨6, _⟩ => ⟨S512x10, .f32⟩
  | .hbm, ⟨7, _⟩ => ⟨S10x64, .f32⟩
  | .hbm, ⟨8, _⟩ => ⟨S512x64, .f32⟩
  | .hbm, ⟨9, _⟩ => ⟨S512x1, .f32⟩
  | .hbm, ⟨10, _⟩ => ⟨S1x64, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S1x64, .f32⟩
  | .hbm, ⟨15, _⟩ => ⟨S512x64, .f32⟩
  | .hbm, ⟨16, _⟩ => ⟨S512x64, .f32⟩
  | .hbm, ⟨17, _⟩ => ⟨S4096x64, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x64, .f32⟩
  | .local _ .vmem, ⟨5, _⟩ => ⟨S512x64, .f32⟩
  | .local _ .vmem, ⟨6, _⟩ => ⟨S1024x64, .f32⟩
  | .local _ .vmem, ⟨7, _⟩ => ⟨S1024x64, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x512x10_S512x10 : S1x512x10.ShapeCasts S512x10
  slices_S11x64_S10x64_0_0 : S11x64.Slices ![0, 0] S10x64
  shapeCasts_S1x512x1_S512x1 : S1x512x1.ShapeCasts S512x1
  slices_S11x64_S1x64_10_0 : S11x64.Slices ![10, 0] S1x64
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  bcast_S64_S1x64_1 : S64.BroadcastsInDim S1x64 (![1] : Fin 1 → Fin S1x64.rank)
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1024x64_S1024x64_0_0 : ∀ a, (![0, 0] : Fin 2 → Nat) a + S1024x64.size a ≤ S1024x64.size a
  h_S1024x64 : 0 < S1024x64.numel
  dot_S512x10_S10x64_S512x64_1_0_0_1_n_n_wf : DotDims.WF S512x10 S10x64 S512x64 [1] [0] [0] [1] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .f32 = 32 ∨ (Rect.block (s := S4096x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S4096x64.size a
  hwx0_4 : ∀ i : grid0.Coords, EltTy.bits .f32 = 32 ∨ (Rect.block (s := S4096x64) S1024x64.size (cc0_transform_4 i) (hinb0_4 i)).WholeWords (EltTy.packing .f32)

variable [Facts₀]

def dot_S512x10_S10x64_S512x64_1_0_0_1_n_n : DotDims S512x10 S10x64 S512x64 where
  lhsContracting := [1]
  rhsContracting := [0]
  lhsNonContracting := [0]
  rhsNonContracting := [1]
  lhsBatch := []
  rhsBatch := []
  wf := dot_S512x10_S10x64_S512x64_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S1x512x10 : Shape := ⟨3, ![1, 512, 10]⟩
abbrev S1x512x1 : Shape := ⟨3, ![1, 512, 1]⟩
abbrev S11x64 : Shape := ⟨2, ![11, 64]⟩
abbrev S64 : Shape := ⟨1, ![64]⟩
abbrev S4096x512x1 : Shape := ⟨3, ![4096, 512, 1]⟩
abbrev S512x10 : Shape := ⟨2, ![512, 10]⟩
abbrev S4096x512x10 : Shape := ⟨3, ![4096, 512, 10]⟩
abbrev S512x1 : Shape := ⟨2, ![512, 1]⟩
abbrev S4096x512x11 : Shape := ⟨3, ![4096, 512, 11]⟩
abbrev S4096x512x64 : Shape := ⟨3, ![4096, 512, 64]⟩
abbrev S1x1x64 : Shape := ⟨3, ![1, 1, 64]⟩
abbrev S_ : Shape := ⟨0, ![]⟩
abbrev S4096x64 : Shape := ⟨2, ![4096, 64]⟩

abbrev nBuf : Space → Nat
  | .hbm => 27
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x512x10, .f32⟩
  | .hbm, ⟨3, _⟩ => ⟨S1x512x1, .f32⟩
  | .hbm, ⟨4, _⟩ => ⟨S11x64, .f32⟩
  | .hbm, ⟨5, _⟩ => ⟨S64, .f32⟩
  | .hbm, ⟨6, _⟩ => ⟨S4096x512x1, .f32⟩
  | .hbm, ⟨7, _⟩ => ⟨S512x10, .f32⟩
  | .hbm, ⟨8, _⟩ => ⟨S1x512x10, .f32⟩
  | .hbm, ⟨9, _⟩ => ⟨S4096x512x10, .f32⟩
  | .hbm, ⟨10, _⟩ => ⟨S4096x512x10, .f32⟩
  | .hbm, ⟨11, _⟩ => ⟨S4096x512x10, .f32⟩
  | .hbm, ⟨12, _⟩ => ⟨S512x1, .f32⟩
  | .hbm, ⟨13, _⟩ => ⟨S4096x512x1, .f32⟩
  | .hbm, ⟨14, _⟩ => ⟨S4096x512x11, .f32⟩
  | .hbm, ⟨15, _⟩ => ⟨S4096x512x64, .f32⟩
  | .hbm, ⟨16, _⟩ => ⟨S1x1x64, .f32⟩
  | .hbm, ⟨17, _⟩ => ⟨S4096x512x64, .f32⟩
  | .hbm, ⟨18, _⟩ => ⟨S4096x512x64, .f32⟩
  | .hbm, ⟨19, _⟩ => ⟨S4096x512x1, .f32⟩
  | .hbm, ⟨20, _⟩ => ⟨S4096x512x64, .f32⟩
  | .hbm, ⟨21, _⟩ => ⟨S4096x512x64, .f32⟩
  | .hbm, ⟨22, _⟩ => ⟨S_, .f32⟩
  | .hbm, ⟨23, _⟩ => ⟨S4096x64, .f32⟩
  | .hbm, ⟨24, _⟩ => ⟨S_, .f32⟩
  | .hbm, ⟨25, _⟩ => ⟨S4096x64, .f32⟩
  | .hbm, ⟨26, _⟩ => ⟨S4096x64, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_call0_cst : Ref sig .tc := ⟨.hbm, 24, rfl⟩
abbrev main_call0_v0 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S4096x512_S4096x512x1_0_1 : S4096x512.BroadcastsInDim S4096x512x1 (![0, 1] : Fin 2 → Fin S4096x512x1.rank)
  shapeCasts_S1x512x10_S512x10 : S1x512x10.ShapeCasts S512x10
  bcast_S512x10_S1x512x10_1_2 : S512x10.BroadcastsInDim S1x512x10 (![1, 2] : Fin 2 → Fin S1x512x10.rank)
  bcast_S4096x512x1_S4096x512x10_0_1_2 : S4096x512x1.BroadcastsInDim S4096x512x10 (![0, 1, 2] : Fin 3 → Fin S4096x512x10.rank)
  bcast_S1x512x10_S4096x512x10_0_1_2 : S1x512x10.BroadcastsInDim S4096x512x10 (![0, 1, 2] : Fin 3 → Fin S4096x512x10.rank)
  shapeCasts_S1x512x1_S512x1 : S1x512x1.ShapeCasts S512x1
  bcast_S512x1_S4096x512x1_1_2 : S512x1.BroadcastsInDim S4096x512x1 (![1, 2] : Fin 2 → Fin S4096x512x1.rank)
  concatenates_S4096x512x10_S4096x512x1_S4096x512x11_d2 : Shape.Concatenates [S4096x512x10, S4096x512x1] S4096x512x11 2
  bcast_S64_S1x1x64_2 : S64.BroadcastsInDim S1x1x64 (![2] : Fin 1 → Fin S1x1x64.rank)
  bcast_S1x1x64_S4096x512x64_0_1_2 : S1x1x64.BroadcastsInDim S4096x512x64 (![0, 1, 2] : Fin 3 → Fin S4096x512x64.rank)
  bcast_S4096x512x1_S4096x512x64_0_1_2 : S4096x512x1.BroadcastsInDim S4096x512x64 (![0, 1, 2] : Fin 3 → Fin S4096x512x64.rank)
  reducesTo_S4096x512x64_S4096x64_d1 : S4096x512x64.ReducesTo [1] S4096x64
  h_S_ : 0 < S_.numel
  bcast_S_S4096x64 : S_.BroadcastsInDim S4096x64 (![] : Fin 0 → Fin S4096x64.rank)
  dot_S4096x512x11_S11x64_S4096x512x64_2_0_01_1_n_n_wf : DotDims.WF S4096x512x11 S11x64 S4096x512x64 [2] [0] [0, 1] [1] [] []

variable [Facts₀]

def dot_S4096x512x11_S11x64_S4096x512x64_2_0_01_1_n_n : DotDims S4096x512x11 S11x64 S4096x512x64 where
  lhsContracting := [2]
  rhsContracting := [0]
  lhsNonContracting := [0, 1]
  rhsNonContracting := [1]
  lhsBatch := []
  rhsBatch := []
  wf := dot_S4096x512x11_S11x64_S4096x512x64_2_0_01_1_n_n_wf

class Facts : Prop extends Facts₀ where

variable [Facts]
-- ==== Proof.Pooling.lean ====
/-
  The mathematics of the pooled encoder, for one output entry (one batch row r, one output column k).

  Write, for a feature d < 512: x d for the observation, μ d for its mask, φ d f (f < 10) for the feature's
  transform row, β d for its bias, w f (f < 11) for column k of the output weights, and c for the output
  bias at k.

  * The kernel computes  max (∑_d (x d · μ d) · (∑_{f<10} φ d f · w f) + ∑_d μ d · (β d · w 10 + c)) 0 :
    the linear map is folded once into a 512 × 64 matrix, and the masked sum becomes two matrix products.
  * The reference computes  max (0 + ∑_d ((∑_{f<11} a d f · w f) + c) · μ d) 0 , where the augmented vector
    a d is x d · φ d f for f < 10 and β d at f = 10.

  On real numbers the two agree: split the sum over eleven terms into ten and the last, pull x d out of the
  inner sum, and distribute μ d. The extended reals do not distribute over sums at the infinities, so the
  law is stated for entries that are real numbers.
-/
import Idealize.ShloMosaic.PureOps.Ideal

noncomputable section

namespace Cert.Pooling

open scoped BigOperators

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One entry of the kernel's result: two dot products over the features, then the rectifier. -/
def kernelVal (x μ β : Fin 512 → EReal) (φ : Fin 512 → Fin 10 → EReal) (w : Fin 11 → EReal) (c : EReal) : EReal :=
  max ((∑ d, (x d * μ d) * (∑ f : Fin 10, φ d f * w f.castSucc)) + ∑ d, μ d * (β d * w (Fin.last 10) + c)) 0

/-- The reference's augmented vector of feature d: ten transformed coordinates, then the feature's bias. -/
def aug (x β : Fin 512 → EReal) (φ : Fin 512 → Fin 10 → EReal) (d : Fin 512) (f : Fin 11) : EReal :=
  if h : f.val < 10 then x d * φ d ⟨f.val, h⟩ else β d

/-- One entry of the reference's result: encode every feature, mask, sum over the features, rectify. -/
def referenceVal (x μ β : Fin 512 → EReal) (φ : Fin 512 → Fin 10 → EReal) (w : Fin 11 → EReal) (c : EReal) : EReal :=
  max (0 + ∑ d, ((∑ f : Fin 11, aug x β φ d f * w f) + c) * μ d) 0

theorem aug_castSucc (x β : Fin 512 → EReal) (φ : Fin 512 → Fin 10 → EReal) (d : Fin 512) (f : Fin 10) :
    aug x β φ d f.castSucc = x d * φ d f := by
  unfold aug
  rw [dif_pos (show (f.castSucc : Fin 11).val < 10 from f.isLt)]
  rfl

theorem aug_last (x β : Fin 512 → EReal) (φ : Fin 512 → Fin 10 → EReal) (d : Fin 512) :
    aug x β φ d (Fin.last 10) = β d := by
  unfold aug
  rw [dif_neg (show ¬ (Fin.last 10 : Fin 11).val < 10 from Nat.lt_irrefl 10)]

/-- The identity on the reals. -/
theorem law_real (x μ β : Fin 512 → ℝ) (φ : Fin 512 → Fin 10 → ℝ) (w : Fin 11 → ℝ) (c : ℝ) :
    (∑ d, (x d * μ d) * (∑ f : Fin 10, φ d f * w f.castSucc)) + ∑ d, μ d * (β d * w (Fin.last 10) + c)
      = 0 + ∑ d, (((∑ f : Fin 10, x d * φ d f * w f.castSucc) + β d * w (Fin.last 10)) + c) * μ d := by
  rw [zero_add, ← Finset.sum_add_distrib]
  refine Finset.sum_congr rfl fun d _ => ?_
  have h : ∑ f : Fin 10, x d * φ d f * w f.castSucc = x d * ∑ f : Fin 10, φ d f * w f.castSucc := by
    rw [Finset.mul_sum]
    exact Finset.sum_congr rfl fun f _ => mul_assoc _ _ _
  rw [h]
  ring

/-- THE LAW: on entries that are real numbers the kernel's entry is the reference's. -/
theorem law (x μ β : Fin 512 → EReal) (φ : Fin 512 → Fin 10 → EReal) (w : Fin 11 → EReal) (c : EReal)
    (hx : ∀ d, x d ≠ ⊤ ∧ x d ≠ ⊥) (hμ : ∀ d, μ d ≠ ⊤ ∧ μ d ≠ ⊥) (hβ : ∀ d, β d ≠ ⊤ ∧ β d ≠ ⊥)
    (hφ : ∀ d f, φ d f ≠ ⊤ ∧ φ d f ≠ ⊥) (hw : ∀ f, w f ≠ ⊤ ∧ w f ≠ ⊥) (hc : c ≠ ⊤ ∧ c ≠ ⊥) :
    kernelVal x μ β φ w c = referenceVal x μ β φ w c := by
  lift x to Fin 512 → ℝ using hx
  lift μ to Fin 512 → ℝ using hμ
  lift β to Fin 512 → ℝ using hβ
  lift φ to Fin 512 → Fin 10 → ℝ using hφ
  lift w to Fin 11 → ℝ using hw
  lift c to ℝ using hc
  unfold kernelVal referenceVal
  congr 1
  simp only [Fin.sum_univ_castSucc (n := 10), aug_castSucc, aug_last]
  simp only [← EReal.coe_mul, ← EReal.coe_add, ← coe_sum, ← EReal.coe_zero]
  exact congrArg _ (law_real x μ β φ w c)

end Cert.Pooling

end
-- ==== Proof.Finite.lean ====
/-
  Every float input is a real number.

  The precondition tests each of the six argument arrays elementwise: |a| < +∞, where |a| is max a (-a) and
  +∞ is the value the pattern 0x7F800000 denotes; it folds each array's tests by "and" from 1, and takes the
  conjunction of the six folds. The claim says the result is 1.

  On the extended reals: a conjunction that is 1 has both sides 1; a fold by "and" over all axes that is 1
  met a 1 at every index; and max x (-x) < ⊤ fails at x = ⊤ (the maximum is ⊤) and at x = ⊥ (then -x = ⊤),
  so it leaves the real numbers only. Hence every entry of every argument is neither ⊤ nor ⊥.
-/
import proofs.«173066_j45861660786920_1_alg».proof.Pre_finite_inputs
import Idealize.ShloMosaic.PureOps.Ideal
import Idealize.ShloMosaic.Lib.ReduceAll
import Idealize.ShloMosaic.Lib.ValueIdx

noncomputable section

namespace Cert.Finite

open Idealize.ShloMosaic

/-- The shape of rank zero has exactly one index. -/
instance : Subsingleton Cert.Pre_finite_inputs.S_.Idx := ⟨fun a b => funext fun d => d.elim0⟩

/-- The pattern 0x7F800000 (sign 0, exponent all ones, significand 0) denotes +∞. -/
theorem inf_bits : Ideal.ofBits .f32 0x7F800000#32 = (⊤ : EReal) := by
  simp [Ideal.ofBits, Ideal.ieee]

/-- An extended real whose absolute value max x (-x) is strictly below ⊤ is a real number. -/
theorem real_of_abs_lt_top (x : EReal) (h : Ideal.cmp .olt (max x (-x)) ⊤ = 1#1) : x ≠ ⊤ ∧ x ≠ ⊥ := by
  induction x using EReal.rec with
  | bot => simp [Ideal.cmp] at h
  | top => simp [Ideal.cmp] at h
  | coe r => exact ⟨EReal.coe_ne_top r, EReal.coe_ne_bot r⟩

/-- For an array of any shape: if the fold by "and" over all axes of the elementwise test |x| < +∞ is 1,
    then every entry of x is a real number. -/
theorem entries_real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) :
    ∀ i, (x i : EReal) ≠ ⊤ ∧ (x i : EReal) ≠ ⊥ := by
  intro i
  -- the fold is 1, so the test at index i is 1; the test at i compares max (x i) (-(x i)) with the constant
  have hi := Host.reduce_andi_all _ _ hr hu ValueIdx.ix0 e i
  refine real_of_abs_lt_top (x i) ?_
  rw [← inf_bits]
  exact hi

/-- The precondition, at the extended reals, makes every entry of each of the six arguments a real number. -/
theorem entries_real [Cert.Pre_finite_inputs.Facts]
    (a0 a1 : FVec Ideal Cert.Pre_finite_inputs.S4096x512 .f32) (a2 : FVec Ideal Cert.Pre_finite_inputs.S1x512x10 .f32)
    (a3 : FVec Ideal Cert.Pre_finite_inputs.S1x512x1 .f32) (a4 : FVec Ideal Cert.Pre_finite_inputs.S11x64 .f32) (a5 : FVec Ideal Cert.Pre_finite_inputs.S64 .f32)
    (h : Cert.Pre_finite_inputs.fn (F := Ideal) a0 a1 a2 a3 a4 a5 = (fun _ => 1#1)) :
    (∀ i, (a0 i : EReal) ≠ ⊤ ∧ (a0 i : EReal) ≠ ⊥) ∧ (∀ i, (a1 i : EReal) ≠ ⊤ ∧ (a1 i : EReal) ≠ ⊥) ∧ (∀ i, (a2 i : EReal) ≠ ⊤ ∧ (a2 i : EReal) ≠ ⊥)
    ∧ (∀ i, (a3 i : EReal) ≠ ⊤ ∧ (a3 i : EReal) ≠ ⊥) ∧ (∀ i, (a4 i : EReal) ≠ ⊤ ∧ (a4 i : EReal) ≠ ⊥) ∧ (∀ i, (a5 i : EReal) ≠ ⊤ ∧ (a5 i : EReal) ≠ ⊥) := by
  -- read the result at its one index and open the chain of operations
  have h0 := congrFun h ValueIdx.ix0
  dsimp only [Cert.Pre_finite_inputs.fn, Cert.Pre_finite_inputs.fn_part1] at h0
  -- a conjunction of six words that is 1 has every word 1
  simp only [andi, IntOp.andi_eq_one] at h0
  obtain ⟨⟨⟨⟨⟨e0, e1⟩, e2⟩, e3⟩, e4⟩, e5⟩ := h0
  exact ⟨entries_real_of_all a0 _ _ _ e0, entries_real_of_all a1 _ _ _ e1, entries_real_of_all a2 _ _ _ e2,
    entries_real_of_all a3 _ _ _ e3, entries_real_of_all a4 _ _ _ e4, entries_real_of_all a5 _ _ _ e5⟩

end Cert.Finite

end
-- ==== Proof.RefRead.lean ====
/-
  The reference program read at one output entry.

  For a batch row r and an output column c the reference computes
      max (0 + ∑_{d<512} ((∑_{f<11} a r d f · W f c) + bw c) · mask r d) 0 ,
  where the augmented vector a r d is obs r d · F 0 d f on the first ten coordinates and b 0 d 0 on the eleventh:
  the concatenation, along the last axis, of a [4096, 512, 10] product and a [4096, 512, 1] broadcast.

  The stages are read one at a time at an index. The two pieces of the concatenation are read first (each is a chain of
  broadcasts and one reshape, so an element of a piece is an element of an argument), then the concatenation itself by
  the case of its last coordinate, then the masked encoded term of one feature, then the sum over the features and the
  rectifier.
-/
import proofs.«173066_j45861660786920_1_alg».proof.Proof.Gen.ReferenceIdeal.Read
import proofs.«173066_j45861660786920_1_alg».proof.Proof.Pooling
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Cert.ReferenceIdeal.Read Idealize.ShloMosaic Idealize.ShloMosaic.ValueIdx

/-- The first piece of the concatenation, the product obs · F broadcast over the batch: at (r, d, f) it is
    obs r d · F 0 d f. The reshape's flat position (d · 10 + f) splits back into d and f. -/
theorem prod_entry (x0 : (⟨S4096x512, .f32⟩ : BufTy).Contents (Elt Ideal)) (x2 : (⟨S1x512x10, .f32⟩ : BufTy).Contents (Elt Ideal))
    (r : Fin 4096) (d : Fin 512) (f : Fin 10) :
    val_main_v5 (F := Ideal) x0 x2 (ix3 r d f) = x0 (ix2 r d) * x2 (ix3 (0 : Fin 1) d f) := by
  rw [val_main_v5_apply, val_main_v3_apply, val_main_v0_apply, val_main_v4_apply, val_main_v2_apply, val_main_v1_apply,
    Ideal.mulf_def]
  have e0 : idx_main_v0 (idx_main_v3 (ix3 r d f)) = ix2 r d := funext fun a => Fin.ext (by
    match a with
    | ⟨0, _⟩ => rfl
    | ⟨1, _⟩ => rfl)
  have e2 : idx_main_v1 (idx_main_v2 (idx_main_v4 (ix3 r d f))) = ix3 (0 : Fin 1) d f := funext fun a => Fin.ext (by
    have hd : d.val < 512 := d.isLt
    have hf : f.val < 10 := f.isLt
    match a with
    | ⟨0, _⟩ => rfl
    | ⟨1, _⟩ => show (d.val * 10 + f.val) / 10 % 512 = d.val; omega
    | ⟨2, _⟩ => show (d.val * 10 + f.val) % 10 = f.val; omega)
  rw [e0, e2]

/-- The second piece of the concatenation, the per-feature bias broadcast over the batch: at (r, d, 0) it is b 0 d 0. -/
theorem bias_entry (x3 : (⟨S1x512x1, .f32⟩ : BufTy).Contents (Elt Ideal)) (r : Fin 4096) (d : Fin 512) :
    val_main_v7 (F := Ideal) x3 (ix3 r d (0 : Fin 1)) = x3 (ix3 (0 : Fin 1) d (0 : Fin 1)) := by
  rw [val_main_v7_apply, val_main_v6_apply]
  exact congrArg x3 (funext fun a => Fin.ext (by
    have hd : d.val < 512 := d.isLt
    match a with
    | ⟨0, _⟩ => rfl
    | ⟨1, _⟩ => show (d.val * 1 + 0) / 1 % 512 = d.val; omega
    | ⟨2, _⟩ => rfl))

/-- The augmented vector: the concatenation at (r, d, k) is the first piece at (r, d, k) when k < 10 and the second
    piece at (r, d, 0) when k = 10. -/
theorem aug_entry (x0 : (⟨S4096x512, .f32⟩ : BufTy).Contents (Elt Ideal)) (x2 : (⟨S1x512x10, .f32⟩ : BufTy).Contents (Elt Ideal))
    (x3 : (⟨S1x512x1, .f32⟩ : BufTy).Contents (Elt Ideal)) (r : Fin 4096) (d : Fin 512) (k : Fin 11) :
    val_main_v8 (F := Ideal) x0 x2 x3 (ix3 r d k)
      = Cert.Pooling.aug (fun d => x0 (ix2 r d)) (fun d => x3 (ix3 (0 : Fin 1) d (0 : Fin 1)))
          (fun d f => x2 (ix3 (0 : Fin 1) d f)) d k := by
  unfold val_main_v8 Cert.Pooling.aug
  by_cases h : k.val < 10
  · rw [dif_pos h,
      concatenate_pair_apply_left (2 : Fin S4096x512x11.rank) (val_main_v5 (F := Ideal) x0 x2) (val_main_v7 (F := Ideal) x3)
        concatenates_S4096x512x10_S4096x512x1_S4096x512x11_d2 (ix3 r d k) rfl (ix3 r d (⟨k.val, h⟩ : Fin 10))
        (fun b => by
          match b with
          | ⟨0, _⟩ => rfl
          | ⟨1, _⟩ => rfl
          | ⟨2, _⟩ => rfl)]
    exact prod_entry x0 x2 r d ⟨k.val, h⟩
  · have hk : k.val = 10 := by have := k.isLt; omega
    rw [dif_neg h,
      concatenate_pair_apply_right (2 : Fin S4096x512x11.rank) (val_main_v5 (F := Ideal) x0 x2) (val_main_v7 (F := Ideal) x3)
        concatenates_S4096x512x10_S4096x512x1_S4096x512x11_d2 (ix3 r d k) rfl rfl (ix3 r d (0 : Fin 1))
        (fun b hb => by
          match b, hb with
          | ⟨0, _⟩, _ => rfl
          | ⟨1, _⟩, _ => rfl
          | ⟨2, _⟩, hb => exact absurd rfl hb)
        (by show 0 + 10 = k.val; omega)]
    exact bias_entry x3 r d

/-- One feature's masked encoded term: at (r, d, c) the product stage is
    ((∑_{f<11} a r d f · W f c) + bw c) · mask r d. -/
theorem term_entry (x0 x1 : (⟨S4096x512, .f32⟩ : BufTy).Contents (Elt Ideal)) (x2 : (⟨S1x512x10, .f32⟩ : BufTy).Contents (Elt Ideal))
    (x3 : (⟨S1x512x1, .f32⟩ : BufTy).Contents (Elt Ideal)) (x4 : (⟨S11x64, .f32⟩ : BufTy).Contents (Elt Ideal))
    (x5 : (⟨S64, .f32⟩ : BufTy).Contents (Elt Ideal)) (r : Fin 4096) (d : Fin 512) (c : Fin 64) :
    val_main_v15 (F := Ideal) x0 x1 x2 x3 x4 x5 (ix3 r d c)
      = ((∑ f : Fin 11, Cert.Pooling.aug (fun d => x0 (ix2 r d)) (fun d => x3 (ix3 (0 : Fin 1) d (0 : Fin 1)))
            (fun d f => x2 (ix3 (0 : Fin 1) d f)) d f * x4 (ix2 f c)) + x5 (ix1 c)) * x1 (ix2 r d) := by
  rw [val_main_v15_apply, val_main_v12_apply, val_main_v9_apply, val_main_v11_apply, val_main_v10_apply,
    val_main_v14_apply, val_main_v13_apply, Ideal.mulf_def, Ideal.addf_def]
  have e5 : idx_main_v10 (idx_main_v11 (ix3 r d c)) = ix1 c := funext fun a => Fin.ext (by
    match a with
    | ⟨0, _⟩ => rfl)
  have e1 : idx_main_v13 (idx_main_v14 (ix3 r d c)) = ix2 r d := funext fun a => Fin.ext (by
    match a with
    | ⟨0, _⟩ => rfl
    | ⟨1, _⟩ => rfl)
  have es : ∑ k : Fin 11, val_main_v8 (F := Ideal) x0 x2 x3 (lidx_main_v9 (ix3 r d c) k) * x4 (ridx_main_v9 (ix3 r d c) k)
      = ∑ f : Fin 11, Cert.Pooling.aug (fun d => x0 (ix2 r d)) (fun d => x3 (ix3 (0 : Fin 1) d (0 : Fin 1)))
            (fun d f => x2 (ix3 (0 : Fin 1) d f)) d f * x4 (ix2 f c) :=
    Finset.sum_congr rfl fun k _ => by
      have el : lidx_main_v9 (ix3 r d c) k = ix3 r d k := funext fun a => Fin.ext (by
        match a with
        | ⟨0, _⟩ => rfl
        | ⟨1, _⟩ => rfl
        | ⟨2, _⟩ => rfl)
      have er : ridx_main_v9 (ix3 r d c) k = ix2 k c := funext fun a => Fin.ext (by
        match a with
        | ⟨0, _⟩ => rfl
        | ⟨1, _⟩ => rfl)
      rw [el, er, aug_entry]
  rw [e5, e1, es]

/-- The reference's entry at (r, c), by coordinates. -/
theorem reference_entry_coord (x0 x1 : (⟨S4096x512, .f32⟩ : BufTy).Contents (Elt Ideal)) (x2 : (⟨S1x512x10, .f32⟩ : BufTy).Contents (Elt Ideal))
    (x3 : (⟨S1x512x1, .f32⟩ : BufTy).Contents (Elt Ideal)) (x4 : (⟨S11x64, .f32⟩ : BufTy).Contents (Elt Ideal))
    (x5 : (⟨S64, .f32⟩ : BufTy).Contents (Elt Ideal)) (r : Fin 4096) (c : Fin 64) :
    val_main_v17 (F := Ideal) x0 x1 x2 x3 x4 x5 (ix2 r c)
      = Cert.Pooling.referenceVal (fun d => x0 (ix2 r d)) (fun d => x1 (ix2 r d)) (fun d => x3 (ix3 (0 : Fin 1) d (0 : Fin 1)))
          (fun d f => x2 (ix3 (0 : Fin 1) d f)) (fun f => x4 (ix2 f c)) (x5 (ix1 c)) := by
  rw [val_main_v17_apply, val_main_call0_v0_apply, val_main_call0_cst_apply, val_main_v16_apply, val_main_cst_apply,
    Ideal.maximumf_def, Ideal.ofBits_def, Ideal.ofBits_zero_f32]
  unfold Cert.Pooling.referenceVal
  have es : ∑ k : Fin 512, val_main_v15 (F := Ideal) x0 x1 x2 x3 x4 x5 (idx_main_v16 (ix2 r c) k)
      = ∑ d : Fin 512, ((∑ f : Fin 11, Cert.Pooling.aug (fun d => x0 (ix2 r d)) (fun d => x3 (ix3 (0 : Fin 1) d (0 : Fin 1)))
            (fun d f => x2 (ix3 (0 : Fin 1) d f)) d f * x4 (ix2 f c)) + x5 (ix1 c)) * x1 (ix2 r d) :=
    Finset.sum_congr rfl fun k _ => by
      have e : idx_main_v16 (ix2 r c) k = ix3 r k c := funext fun a => Fin.ext (by
        match a with
        | ⟨0, _⟩ => rfl
        | ⟨1, _⟩ => rfl
        | ⟨2, _⟩ => rfl)
      rw [e, term_entry]
  rw [es]

/-- THE REFERENCE AT AN ENTRY: the result at an index j is the specification's entry for row j 0 and column j 1, a
    function of the observation row, the mask row, the per-feature biases and transforms, the weight column and
    the output bias. -/
theorem reference_entry (x0 x1 : (⟨S4096x512, .f32⟩ : BufTy).Contents (Elt Ideal)) (x2 : (⟨S1x512x10, .f32⟩ : BufTy).Contents (Elt Ideal))
    (x3 : (⟨S1x512x1, .f32⟩ : BufTy).Contents (Elt Ideal)) (x4 : (⟨S11x64, .f32⟩ : BufTy).Contents (Elt Ideal))
    (x5 : (⟨S64, .f32⟩ : BufTy).Contents (Elt Ideal)) (j : S4096x64.Idx) :
    val_main_v17 (F := Ideal) x0 x1 x2 x3 x4 x5 j
      = Cert.Pooling.referenceVal (fun d => x0 (ix2 (j 0) d)) (fun d => x1 (ix2 (j 0) d)) (fun d => x3 (ix3 (0 : Fin 1) d (0 : Fin 1)))
          (fun d f => x2 (ix3 (0 : Fin 1) d f)) (fun f => x4 (ix2 f (j 1))) (x5 (ix1 (j 1))) :=
  (congrArg (val_main_v17 (F := Ideal) x0 x1 x2 x3 x4 x5) (eq_ix2 j)).trans
    (reference_entry_coord x0 x1 x2 x3 x4 x5 (j 0) (j 1))

end Cert.RefRead

end
-- ==== Proof.Body.lean ====
/-
  The kernel's body at one entry of its output block.

  A grid point holds a block of 1024 batch rows. With X and M the block's observations and masks
  ([1024, 512]) and A, B the two folded matrices ([512, 64]) the body stores
      max ((X ∘ M) · A + M · B, 0)
  where ∘ is the entrywise product and · the matrix product. At the ideal instance the change of float
  format before each matrix product is the identity, the identity reshape of a matrix is the matrix, and a
  matrix product into a zero accumulator is the plain sum over the contracted axis. So entry (p, q) is
      max (∑_d (X p d · M p d) · A d q + ∑_d M p d · B d q, 0).
-/
import proofs.«173066_j45861660786920_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe ValueIdx

/-! ## The operand indices of the [1024, 512] × [512, 64] product, axis by axis -/

theorem lhs_axis0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem lhs_axis1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
theorem rhs_axis0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
theorem rhs_axis1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- The block's matrix product into a zero accumulator, at entry (p, q): the sum over the 512 features of the
    left operand's row p times the right operand's column q. -/
theorem product_entry {φ₁ φ₂ : FTy} (l : FVec Ideal S1024x512 φ₁) (r : FVec Ideal S512x64 φ₂) (p : Fin 1024) (q : Fin 64) :
    matmul (F := Ideal) dot_S1024x512_S512x64_S1024x64_1_0_0_1_n_n none l r (constant S1024x64 .f32 0x00000000#32) (ix2 p q)
      = ∑ d : Fin 512, l (ix2 p d) * r (ix2 d q) := by
  show FloatOps.matmul dot_S1024x512_S512x64_S1024x64_1_0_0_1_n_n none l r (constant S1024x64 .f32 0x00000000#32) (ix2 p q) = _
  rw [Ideal.matmul_constant_zero_apply, ← Equiv.sum_comp (ValueIdx.contrEquiv1 dot_S1024x512_S512x64_S1024x64_1_0_0_1_n_n 512 rfl rfl).symm]
  refine Finset.sum_congr rfl fun k _ => ?_
  have hk := ValueIdx.contrEquiv1_symm_val dot_S1024x512_S512x64_S1024x64_1_0_0_1_n_n 512 rfl rfl k
  have el : dot_S1024x512_S512x64_S1024x64_1_0_0_1_n_n.lhsIdx (ix2 p q) ((ValueIdx.contrEquiv1 dot_S1024x512_S512x64_S1024x64_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x64_S1024x64_1_0_0_1_n_n.rhsIdx (ix2 p q) ((ValueIdx.contrEquiv1 dot_S1024x512_S512x64_S1024x64_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- THE BODY AT AN ENTRY: what the body stores at (p, q) of its output block, from its four loaded blocks. -/
theorem payload_entry (v0 v1 : Vec Ideal S1024x512 .f32) (v5 v8 : Vec Ideal S512x64 .f32) (p : Fin 1024) (q : Fin 64) :
    k0_pay1 (F := Ideal) v0 v1 v5 v8 (ix2 p q)
      = max ((∑ d : Fin 512, ((v0 (ix2 p d) : EReal) * v1 (ix2 p d)) * v5 (ix2 d q)) + ∑ d : Fin 512, (v1 (ix2 p d) : EReal) * v8 (ix2 d q)) 0 := by
  unfold k0_pay1
  rw [maximumf_apply, addf_apply, product_entry, product_entry, broadcast_apply]
  simp only [truncf_apply, mulf_apply, shapeCast_self]
  show max _ (Ideal.ofBits .f32 0x00000000#32) = _
  rw [Ideal.ofBits_zero_f32]

end Cert.KernelIdeal.Body

end
-- ==== Proof.HostPrefix.lean ====
/-
  The two small matrices the program folds before the kernel runs, entry by entry.

  With F the per-feature transform ([1, 512, 10]), b the per-feature bias ([1, 512, 1]), W the output weights
  ([11, 64]) and bw the output bias ([64]):
    * the folded transform  A d k = ∑_{f<10} F 0 d f · W f k   (a reshape, the first ten rows of W, one product);
    * the folded bias       B d k = b 0 d 0 · W 10 k + bw k     (a reshape, the last row of W, three broadcasts).
  These are what the kernel's third and fourth windows stage.
-/
import proofs.«173066_j45861660786920_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem Idealize.ShloMosaic.StableHlo ValueIdx

section terms
variable {F : FTy → Type} [FloatOps F]
variable (m : (ℓ : Loc nD τ sig) → Buf (Elt F) ℓ)

/-- The folded transform as the region finds it: the product of the reshaped transform with the first ten rows
    of the weights. -/
theorem transform_term (c : Dev nD) : (V m c main_v2 : S512x64.Idx → Elt F .f32)
    = Host.dotGeneral dot_S512x10_S10x64_S512x64_1_0_0_1_n_n none
        (shapeCast S512x10 (m ((c : Thread nD τ).loc main_arg2)) shapeCasts_S1x512x10_S512x10)
        (extractStridedSlice S10x64 ![0, 0] (m ((c : Thread nD τ).loc main_arg4)) slices_S11x64_S10x64_0_0) := by
  dsimp only [Gen.V, Gen.hostOps0]
  after_results
  rfl

/-- The folded bias as the region finds it: the reshaped bias column times the last row of the weights, plus the
    output bias, each broadcast to [512, 64]. -/
theorem bias_term (c : Dev nD) : (V m c main_v10 : S512x64.Idx → Elt F .f32)
    = addf (mulf (broadcastInDim S512x64 ![0, 1] bcast_S512x1_S512x64_0_1 (shapeCast S512x1 (m ((c : Thread nD τ).loc main_arg3)) shapeCasts_S1x512x1_S512x1))
          (broadcastInDim S512x64 ![0, 1] bcast_S1x64_S512x64_0_1 (extractStridedSlice S1x64 ![10, 0] (m ((c : Thread nD τ).loc main_arg4)) slices_S11x64_S1x64_10_0)))
        (broadcastInDim S512x64 ![0, 1] bcast_S1x64_S512x64_0_1 (broadcastInDim S1x64 ![1] bcast_S64_S1x64_1 (m ((c : Thread nD τ).loc main_arg5)))) := by
  dsimp only [Gen.V, Gen.hostOps0]
  after_results
  rfl

end terms

/-! ## The operand indices of the [512, 10] × [10, 64] product, axis by axis -/

theorem lhs_axis0 (i : S512x64.Idx) (q : dot_S512x10_S10x64_S512x64_1_0_0_1_n_n.contr.Idx) :
    (dot_S512x10_S10x64_S512x64_1_0_0_1_n_n.lhsIdx i q 0).val = (i 0).val := by
  unfold DotDims.lhsIdx
  rw [dif_neg (show ¬(0 : Fin S512x10.rank) ∈ dot_S512x10_S10x64_S512x64_1_0_0_1_n_n.lhsBatch by decide), dif_pos (show (0 : Fin S512x10.rank) ∈ dot_S512x10_S10x64_S512x64_1_0_0_1_n_n.lhsNonContracting by decide)]
  rfl
theorem lhs_axis1 (i : S512x64.Idx) (q : dot_S512x10_S10x64_S512x64_1_0_0_1_n_n.contr.Idx) :
    (dot_S512x10_S10x64_S512x64_1_0_0_1_n_n.lhsIdx i q 1).val = (q ⟨0, by decide⟩).val :=
  dot_S512x10_S10x64_S512x64_1_0_0_1_n_n.lhsIdx_val_of_single rfl i q
theorem rhs_axis0 (i : S512x64.Idx) (q : dot_S512x10_S10x64_S512x64_1_0_0_1_n_n.contr.Idx) :
    (dot_S512x10_S10x64_S512x64_1_0_0_1_n_n.rhsIdx i q 0).val = (q ⟨0, by decide⟩).val :=
  dot_S512x10_S10x64_S512x64_1_0_0_1_n_n.rhsIdx_val_of_single rfl i q
theorem rhs_axis1 (i : S512x64.Idx) (q : dot_S512x10_S10x64_S512x64_1_0_0_1_n_n.contr.Idx) :
    (dot_S512x10_S10x64_S512x64_1_0_0_1_n_n.rhsIdx i q 1).val = (i 1).val := by
  unfold DotDims.rhsIdx
  rw [dif_neg (show ¬(1 : Fin S10x64.rank) ∈ dot_S512x10_S10x64_S512x64_1_0_0_1_n_n.rhsBatch by decide), dif_pos (show (1 : Fin S10x64.rank) ∈ dot_S512x10_S10x64_S512x64_1_0_0_1_n_n.rhsNonContracting by decide)]
  rfl

/-- The reshape [1, 512, 10] → [512, 10] at (d, f) reads (0, d, f). -/
theorem reshape_transform (x : FVec Ideal S1x512x10 .f32) (d : Fin 512) (f : Fin 10) :
    shapeCast S512x10 x shapeCasts_S1x512x10_S512x10 (ix2 d f) = x (ix3 (0 : Fin 1) d f) :=
  shapeCast_apply x shapeCasts_S1x512x10_S512x10 (ix2 d f) (ix3 (0 : Fin 1) d f)
    (by rewrite [Shape.rowMajor_val_three, Shape.rowMajor_val_two]; show (0 * 512 + d.val) * 10 + f.val = d.val * 10 + f.val; omega)

/-- The reshape [1, 512, 1] → [512, 1] at (d, 0) reads (0, d, 0). -/
theorem reshape_bias (x : FVec Ideal S1x512x1 .f32) (d : Fin 512) :
    shapeCast S512x1 x shapeCasts_S1x512x1_S512x1 (ix2 d (0 : Fin 1)) = x (ix3 (0 : Fin 1) d (0 : Fin 1)) :=
  shapeCast_apply x shapeCasts_S1x512x1_S512x1 (ix2 d (0 : Fin 1)) (ix3 (0 : Fin 1) d (0 : Fin 1))
    (by rewrite [Shape.rowMajor_val_three, Shape.rowMajor_val_two]; show (0 * 512 + d.val) * 1 + 0 = d.val * 1 + 0; omega)

/-- THE FOLDED TRANSFORM AT AN ENTRY: A d k = ∑_{f<10} F 0 d f · W f k. -/
theorem transform_entry (x2 : FVec Ideal S1x512x10 .f32) (x4 : FVec Ideal S11x64 .f32) (d : Fin 512) (k : Fin 64) :
    Host.dotGeneral (F := Ideal) dot_S512x10_S10x64_S512x64_1_0_0_1_n_n none
        (shapeCast S512x10 x2 shapeCasts_S1x512x10_S512x10) (extractStridedSlice S10x64 ![0, 0] x4 slices_S11x64_S10x64_0_0) (ix2 d k)
      = ∑ f : Fin 10, x2 (ix3 (0 : Fin 1) d f) * x4 (ix2 f.castSucc k) := by
  simp only [Host.dotGeneral]
  rw [Ideal.dotGeneral_apply, ← Equiv.sum_comp (ValueIdx.contrEquiv1 dot_S512x10_S10x64_S512x64_1_0_0_1_n_n 10 rfl rfl).symm]
  refine Finset.sum_congr rfl fun f _ => ?_
  have hk := ValueIdx.contrEquiv1_symm_val dot_S512x10_S10x64_S512x64_1_0_0_1_n_n 10 rfl rfl f
  have el : dot_S512x10_S10x64_S512x64_1_0_0_1_n_n.lhsIdx (ix2 d k) ((ValueIdx.contrEquiv1 dot_S512x10_S10x64_S512x64_1_0_0_1_n_n 10 rfl rfl).symm f) = ix2 d f := funext fun a => Fin.ext (by
    match a with
    | ⟨0, _⟩ => exact lhs_axis0 _ _
    | ⟨1, _⟩ => exact (lhs_axis1 _ _).trans hk)
  have er : dot_S512x10_S10x64_S512x64_1_0_0_1_n_n.rhsIdx (ix2 d k) ((ValueIdx.contrEquiv1 dot_S512x10_S10x64_S512x64_1_0_0_1_n_n 10 rfl rfl).symm f) = ix2 f k := funext fun a => Fin.ext (by
    match a with
    | ⟨0, _⟩ => exact (rhs_axis0 _ _).trans hk
    | ⟨1, _⟩ => exact rhs_axis1 _ _)
  rw [el, er, reshape_transform]
  refine congrArg (_ * ·) ?_
  exact extractStridedSlice_apply _ x4 slices_S11x64_S10x64_0_0 (ix2 f k) (ix2 f.castSucc k) (fun a => by
    match a with
    | ⟨0, _⟩ => show f.val = 0 + f.val; omega
    | ⟨1, _⟩ => show k.val = 0 + k.val; omega)

/-- THE FOLDED BIAS AT AN ENTRY: B d k = b 0 d 0 · W 10 k + bw k. -/
theorem bias_entry (x3 : FVec Ideal S1x512x1 .f32) (x4 : FVec Ideal S11x64 .f32) (x5 : FVec Ideal S64 .f32) (d : Fin 512) (k : Fin 64) :
    addf (F := Ideal) (mulf (broadcastInDim S512x64 ![0, 1] bcast_S512x1_S512x64_0_1 (shapeCast S512x1 x3 shapeCasts_S1x512x1_S512x1))
          (broadcastInDim S512x64 ![0, 1] bcast_S1x64_S512x64_0_1 (extractStridedSlice S1x64 ![10, 0] x4 slices_S11x64_S1x64_10_0)))
        (broadcastInDim S512x64 ![0, 1] bcast_S1x64_S512x64_0_1 (broadcastInDim S1x64 ![1] bcast_S64_S1x64_1 x5)) (ix2 d k)
      = x3 (ix3 (0 : Fin 1) d (0 : Fin 1)) * x4 (ix2 (Fin.last 10) k) + x5 (ix1 k) := by
  rw [addf_apply, mulf_apply]
  rw [broadcastInDim_apply _ bcast_S512x1_S512x64_0_1 _ (ix2 d k) (ix2 d (0 : Fin 1)) (fun a => by
    match a with
    | ⟨0, _⟩ => show d.val = if (512 : Nat) = 1 then 0 else d.val; rw [if_neg (by decide)]
    | ⟨1, _⟩ => show 0 = if (1 : Nat) = 1 then 0 else k.val; rw [if_pos rfl])]
  rw [broadcastInDim_apply _ bcast_S1x64_S512x64_0_1 (extractStridedSlice S1x64 ![10, 0] x4 slices_S11x64_S1x64_10_0) (ix2 d k) (ix2 (0 : Fin 1) k) (fun a => by
    match a with
    | ⟨0, _⟩ => show 0 = if (1 : Nat) = 1 then 0 else d.val; rw [if_pos rfl]
    | ⟨1, _⟩ => show k.val = if (64 : Nat) = 1 then 0 else k.val; rw [if_neg (by decide)])]
  rw [broadcastInDim_apply _ bcast_S1x64_S512x64_0_1 (broadcastInDim S1x64 ![1] bcast_S64_S1x64_1 x5) (ix2 d k) (ix2 (0 : Fin 1) k) (fun a => by
    match a with
    | ⟨0, _⟩ => show 0 = if (1 : Nat) = 1 then 0 else d.val; rw [if_pos rfl]
    | ⟨1, _⟩ => show k.val = if (64 : Nat) = 1 then 0 else k.val; rw [if_neg (by decide)])]
  rw [broadcastInDim_apply _ bcast_S64_S1x64_1 x5 (ix2 (0 : Fin 1) k) (ix1 k) (fun a => by
    match a with
    | ⟨0, _⟩ => show k.val = if (64 : Nat) = 1 then 0 else k.val; rw [if_neg (by decide)])]
  rw [reshape_bias]
  rw [extractStridedSlice_apply _ x4 slices_S11x64_S1x64_10_0 (ix2 (0 : Fin 1) k) (ix2 (Fin.last 10) k) (fun a => by
    match a with
    | ⟨0, _⟩ => show 10 = 10 + 0; rfl
    | ⟨1, _⟩ => show k.val = 0 + k.val; omega)]

end Cert.KernelIdeal.HostPrefix

end
-- ==== Proof.Blocks.lean ====
/-
  From the blocks the grid points write to the whole result array.

  The grid has four points; point t stages rows 1024·t … 1024·t + 1023 of the observations and of the masks, the
  two folded matrices whole, and writes back rows 1024·t … 1024·t + 1023 of the result. What it writes at
  (p, q) of its block is the body's entry (p, q) of the staged blocks, which is the entry (1024·t + p, q) of ONE
  function of the whole arrays: the masked sum
      R r k = max (∑_d (X r d · M r d) · A d k + ∑_d M r d · B d k, 0).
  Row r lies in the block of point r / 1024, so the four blocks cover the array and it ends holding R. With the
  folded matrices read entry by entry, R r k is the kernel's entry of the specification.
-/
import proofs.«173066_j45861660786920_1_alg».proof.Proof.Gen.KernelIdeal.Value
import proofs.«173066_j45861660786920_1_alg».proof.Proof.Body
import proofs.«173066_j45861660786920_1_alg».proof.Proof.HostPrefix
import proofs.«173066_j45861660786920_1_alg».proof.Proof.Pooling
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The masked sum as one function of the whole arrays: observations X, masks M, folded transform A, folded bias B. -/
def masked (X M : S4096x512.Idx → EReal) (A B : S512x64.Idx → EReal) : S4096x64.Idx → EReal := fun j =>
  max ((∑ d : Fin 512, (X (ix2 (j 0) d) * M (ix2 (j 0) d)) * A (ix2 d (j 1))) + ∑ d : Fin 512, M (ix2 (j 0) d) * B (ix2 d (j 1))) 0

/-- The body's entry y of a block whose rows are rows b·1024 … of the arrays is the masked sum's entry at the
    corresponding row of the whole array. -/
theorem block_entry (x0 x1 : Vec Ideal S1024x512 .f32) (x2 x3 : Vec Ideal S512x64 .f32)
    (X M : S4096x512.Idx → EReal) (A B : S512x64.Idx → EReal) (b : Nat) (y : S1024x64.Idx) (i : S4096x64.Idx)
    (hi0 : (i 0).val = b * 1024 + (y 0).val) (hi1 : (i 1).val = (y 1).val)
    (h0 : ∀ (y' : S1024x512.Idx) (i' : S4096x512.Idx), (i' 0).val = b * 1024 + (y' 0).val → (i' 1).val = (y' 1).val → (x0 y' : EReal) = X i')
    (h1 : ∀ (y' : S1024x512.Idx) (i' : S4096x512.Idx), (i' 0).val = b * 1024 + (y' 0).val → (i' 1).val = (y' 1).val → (x1 y' : EReal) = M i')
    (h2 : ∀ z : S512x64.Idx, (x2 z : EReal) = A z) (h3 : ∀ z : S512x64.Idx, (x3 z : EReal) = B z) :
    (k0_pay1 (F := Ideal) x0 x1 x2 x3 y : EReal) = masked X M A B i := by
  obtain ⟨p, q, rfl⟩ : ∃ (p : Fin 1024) (q : Fin 64), y = ix2 p q := ⟨y 0, y 1, eq_ix2 y⟩
  obtain ⟨r, k, rfl⟩ : ∃ (r : Fin 4096) (k : Fin 64), i = ix2 r k := ⟨i 0, i 1, eq_ix2 i⟩
  have e : k = q := Fin.ext hi1
  subst e
  rw [Body.payload_entry]
  show _ = max ((∑ d : Fin 512, (X (ix2 r d) * M (ix2 r d)) * A (ix2 d k)) + ∑ d : Fin 512, M (ix2 r d) * B (ix2 d k)) 0
  congr 1
  congr 1
  · refine Finset.sum_congr rfl fun d _ => ?_
    rw [h0 (ix2 p d) (ix2 r d) hi0 rfl, h1 (ix2 p d) (ix2 r d) hi0 rfl, h2]
  · refine Finset.sum_congr rfl fun d _ => ?_
    rw [h1 (ix2 p d) (ix2 r d) hi0 rfl, h3]

/-- The printed index maps over the grid: the observations', masks' and result's blocks move down the rows with the
    point; the folded matrices are staged whole. -/
theorem idx_facts : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT t WRITES BACK is block t of the masked sum of the arrays as the region finds them. -/
theorem flushed_eq (c : Dev nD) (t : Fin cfg0.N) :
    (dats m 0 c).flushed 4 t = ((cfg0.win 4).blk t).view.read (Elt Ideal) (masked (V m c main_arg0) (V m c main_arg1) (V m c main_v2) (V m c main_v10)) := by
  rw [Value.flushed4]
  unfold out0_4
  rw [View.canon_unit_zero hz]
  simp only [View.ld_unit_zero (S := S1024x512) hz, View.ld_unit_zero (S := S512x64) hz]
  obtain ⟨e00, e01, e10, e11, e20, e21, e30, e31, e40, e41⟩ := idx_facts t
  funext y
  show k0_pay1 (F := Ideal) (iblk m c 0 t) (iblk m c 1 t) (iblk m c 2 t) (iblk m c 3 t) y
    = masked (V m c main_arg0) (V m c main_arg1) (V m c main_v2) (V m c main_v10) (((cfg0.win 4).blk t).view.emb y)
  refine block_entry (iblk m c 0 t) (iblk m c 1 t) (iblk m c 2 t) (iblk m c 3 t) (V m c main_arg0) (V m c main_arg1) (V m c main_v2) (V m c main_v10)
    (win0_4.index t (0 : Fin 2)) y (((cfg0.win 4).blk t).view.emb y) ?_ ?_ ?_ ?_ ?_ ?_
  · show win0_4.index t (0 : Fin 2) * 1024 + 1 * (y 0).val = win0_4.index t (0 : Fin 2) * 1024 + (y 0).val
    omega
  · show win0_4.index t (1 : Fin 2) * 64 + 1 * (y 1).val = (y 1).val
    omega
  · intro y' i' h0' h1'
    show V m c main_arg0 (((cfg0.win 0).blk t).view.emb y') = V m c main_arg0 i'
    refine congrArg _ (funext fun a => Fin.ext ?_)
    match a with
    | ⟨0, _⟩ => show win0_0.index t (0 : Fin 2) * 1024 + 1 * (y' 0).val = (i' 0).val; omega
    | ⟨1, _⟩ => show win0_0.index t (1 : Fin 2) * 512 + 1 * (y' 1).val = (i' 1).val; omega
  · intro y' i' h0' h1'
    show V m c main_arg1 (((cfg0.win 1).blk t).view.emb y') = V m c main_arg1 i'
    refine congrArg _ (funext fun a => Fin.ext ?_)
    match a with
    | ⟨0, _⟩ => show win0_1.index t (0 : Fin 2) * 1024 + 1 * (y' 0).val = (i' 0).val; omega
    | ⟨1, _⟩ => show win0_1.index t (1 : Fin 2) * 512 + 1 * (y' 1).val = (i' 1).val; omega
  · intro z
    show V m c main_v2 (((cfg0.win 2).blk t).view.emb z) = V m c main_v2 z
    refine congrArg _ (funext fun a => Fin.ext ?_)
    match a with
    | ⟨0, _⟩ => show win0_2.index t (0 : Fin 2) * 512 + 1 * (z 0).val = (z 0).val; omega
    | ⟨1, _⟩ => show win0_2.index t (1 : Fin 2) * 64 + 1 * (z 1).val = (z 1).val; omega
  · intro z
    show V m c main_v10 (((cfg0.win 3).blk t).view.emb z) = V m c main_v10 z
    refine congrArg _ (funext fun a => Fin.ext ?_)
    match a with
    | ⟨0, _⟩ => show win0_3.index t (0 : Fin 2) * 512 + 1 * (z 0).val = (z 0).val; omega
    | ⟨1, _⟩ => show win0_3.index t (1 : Fin 2) * 64 + 1 * (z 1).val = (z 1).val; omega

/-- An index of the result array is in point t's block iff each coordinate is in the block's range on its axis. -/
theorem mem_blk (t : Fin cfg0.N) (i : S4096x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v11).slice (win0_4.rect t)).set ↔ _
  rw [View.set_slice_whole, Rect.mem_set_unit]
  exact Iff.rfl

/-- Row r of the result lies in the block of point r / 1024: the four blocks cover the array. -/
theorem covered (i : S4096x64.Idx) : ∃ t : Fin cfg0.N, (cfg0.win 4).flush t = true ∧ i ∈ ((cfg0.win 4).blk t).view.set := by
  have hi0 : (i 0).val < 4096 := (i 0).isLt
  have hi1 : (i 1).val < 64 := (i 1).isLt
  have hN : cfg0.N = 4 := N_0
  obtain ⟨t, ht⟩ : ∃ t : Fin cfg0.N, t.val = (i 0).val / 1024 := ⟨⟨(i 0).val / 1024, by rw [hN]; omega⟩, rfl⟩
  obtain ⟨e00, e01, e10, e11, e20, e21, e30, e31, e40, e41⟩ := idx_facts t
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 64 ≤ (i 1).val ∧ (i 1).val < win0_4.index t (1 : Fin 2) * 64 + 64; omega

/-- THE RESULT ARRAY after the run is the masked sum of the arrays as the region finds them. -/
theorem final (c : Dev nD) : (dats m 0 c).arrAt 4 cfg0.N = masked (V m c main_arg0) (V m c main_arg1) (V m c main_v2) (V m c main_v10) :=
  (dats m 0 c).arrAt_eq_of_cover 4 (masked (V m c main_arg0) (V m c main_arg1) (V m c main_v2) (V m c main_v10)) (fun t _ => flushed_eq m c t) covered

/-- The result array as a function of the six argument arrays: entry (r, k) is the kernel's entry of the
    specification at row r of the observations and masks and column k of the weights and output bias. -/
def out (c : Dev nD) : S4096x64.Idx → EReal := fun j =>
  Cert.Pooling.kernelVal (fun d => m ((c : Thread nD τ).loc main_arg0) (ix2 (j 0) d)) (fun d => m ((c : Thread nD τ).loc main_arg1) (ix2 (j 0) d))
    (fun d => m ((c : Thread nD τ).loc main_arg3) (ix3 (0 : Fin 1) d (0 : Fin 1))) (fun d f => m ((c : Thread nD τ).loc main_arg2) (ix3 (0 : Fin 1) d f))
    (fun f => m ((c : Thread nD τ).loc main_arg4) (ix2 f (j 1))) (m ((c : Thread nD τ).loc main_arg5) (ix1 (j 1)))

/-- The masked sum over the two folded matrices, each read entry by entry, is the kernel's entry of the specification. -/
theorem masked_folded (X M : S4096x512.Idx → EReal) (x2 : FVec Ideal S1x512x10 .f32) (x3 : FVec Ideal S1x512x1 .f32)
    (x4 : FVec Ideal S11x64 .f32) (x5 : FVec Ideal S64 .f32) (j : S4096x64.Idx) :
    masked X M
        (Host.dotGeneral (F := Ideal) dot_S512x10_S10x64_S512x64_1_0_0_1_n_n none
          (shapeCast S512x10 x2 shapeCasts_S1x512x10_S512x10) (extractStridedSlice S10x64 ![0, 0] x4 slices_S11x64_S10x64_0_0))
        (addf (F := Ideal) (mulf (broadcastInDim S512x64 ![0, 1] bcast_S512x1_S512x64_0_1 (shapeCast S512x1 x3 shapeCasts_S1x512x1_S512x1))
            (broadcastInDim S512x64 ![0, 1] bcast_S1x64_S512x64_0_1 (extractStridedSlice S1x64 ![10, 0] x4 slices_S11x64_S1x64_10_0)))
          (broadcastInDim S512x64 ![0, 1] bcast_S1x64_S512x64_0_1 (broadcastInDim S1x64 ![1] bcast_S64_S1x64_1 x5))) j
      = Cert.Pooling.kernelVal (fun d => X (ix2 (j 0) d)) (fun d => M (ix2 (j 0) d)) (fun d => x3 (ix3 (0 : Fin 1) d (0 : Fin 1)))
          (fun d f => x2 (ix3 (0 : Fin 1) d f)) (fun f => x4 (ix2 f (j 1))) (x5 (ix1 (j 1))) := by
  unfold masked Cert.Pooling.kernelVal
  congr 1
  congr 1
  · exact Finset.sum_congr rfl fun d _ => congrArg ((X (ix2 (j 0) d) * M (ix2 (j 0) d)) * ·) (HostPrefix.transform_entry x2 x4 d (j 1))
  · exact Finset.sum_congr rfl fun d _ => congrArg (M (ix2 (j 0) d) * ·) (HostPrefix.bias_entry x3 x4 x5 d (j 1))

/-- The masked sum of the arrays as the region finds them is that function of the six arguments. -/
theorem masked_eq_out (c : Dev nD) : masked (V m c main_arg0) (V m c main_arg1) (V m c main_v2) (V m c main_v10) = out m c := by
  funext j
  rw [V_main_arg0, V_main_arg1, HostPrefix.transform_term, HostPrefix.bias_term]
  exact masked_folded _ _ _ _ _ _ j

/-- The kernel's run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v11) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (masked_eq_out m c)), (h c).2⟩)
    (Cert.KernelIdeal.Value.run_blocks m ρ)

end Cert.KernelIdeal.Blocks

end
-- ==== Proof.lean ====
/-
  The certificate of the masked pooling encoder: the kernel against its reference over the extended reals.

  Per batch row r and output column k the reference encodes every feature d by an affine map of the observation
  (eleven coordinates: ten of x r d · F d f and the feature's bias), applies the output weights and bias, masks,
  sums over the features and rectifies. The encoding is linear in the observation, so the kernel folds the two
  linear maps once into a [512, 64] matrix A d k = ∑_{f<10} F d f · W f k and a [512, 64] matrix
  B d k = b d · W 10 k + bw k, and computes max ((X ∘ M) · A + M · B, 0) block of rows by block of rows.

  The two results are equal entry by entry when the inputs are real numbers, which the precondition says they
  are: the identity distributes the mask over the encoded sum and pulls the observation out of the inner sum,
  and both steps need finiteness on the extended reals (Proof/Pooling.lean). The kernel's result array is read
  off its run block by block (Proof/Body.lean, Proof/HostPrefix.lean, Proof/Blocks.lean), the reference's off its
  run one operation at a time (Proof/RefRead.lean), and the precondition is opened to entrywise finiteness in
  Proof/Finite.lean. The three frames are the programs' runs with the result dropped; the idealization rewrote
  no operation, so there is nothing to preserve.
-/
import proofs.«173066_j45861660786920_1_alg».proof.Defs
import proofs.«173066_j45861660786920_1_alg».proof.Proof.Gen.Kernel
import proofs.«173066_j45861660786920_1_alg».proof.Proof.Gen.Kernel.Frame
import proofs.«173066_j45861660786920_1_alg».proof.Proof.Gen.KernelIdeal
import proofs.«173066_j45861660786920_1_alg».proof.Proof.Gen.KernelIdeal.Frame
import proofs.«173066_j45861660786920_1_alg».proof.Proof.Gen.KernelIdeal.Value
import proofs.«173066_j45861660786920_1_alg».proof.Proof.Gen.ReferenceIdeal
import proofs.«173066_j45861660786920_1_alg».proof.Proof.Gen.ReferenceIdeal.Run
import proofs.«173066_j45861660786920_1_alg».proof.Proof.Gen.ReferenceIdeal.Read
import proofs.«173066_j45861660786920_1_alg».proof.Proof.Gen.Pre_finite_inputs
import proofs.«173066_j45861660786920_1_alg».proof.Proof.Pooling
import proofs.«173066_j45861660786920_1_alg».proof.Proof.Finite
import proofs.«173066_j45861660786920_1_alg».proof.Proof.RefRead
import proofs.«173066_j45861660786920_1_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: entry (r, k) of the
    kernel's is the folded form, entry (r, k) of the reference's the encoded form, and the two are one number
    because every argument entry is real. -/
theorem algebraic : Cert.algebraic_KernelIdeal_ReferenceIdeal := by
  intro m ρ m' ρ' hpre hagree
  refine ⟨fun c => Cert.KernelIdeal.Blocks.out m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  obtain ⟨f0, f1, f2, f3, f4, f5⟩ := Cert.Finite.entries_real _ _ _ _ _ _ (hpre c)
  rw [Cert.ReferenceIdeal.Read.val_main_v17_eq]
  funext j
  rw [Cert.RefRead.reference_entry, a0, a1, a2, a3, a4, a5]
  exact (Cert.Pooling.law _ _ _ _ _ _ (fun d => f0 _) (fun d => f1 _) (fun d => f3 _) (fun d f => f2 _) (fun f => f4 _) (f5 _)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
